-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S1024 : Shape := ⟨1, ![1024]⟩
abbrev S4x1024x1 : Shape := ⟨3, ![4, 1024, 1]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S4x1024x1 : S_.BroadcastsInDim S4x1024x1 (![] : Fin 0 → Fin S4x1024x1.rank)
  reducesTo_S4x1024x1_S_d0_1_2 : S4x1024x1.ReducesTo [0, 1, 2] S_

variable [Facts]

def fn_part1 {F : FTy → Type} [FloatOps F] (main_arg4 : FVec F S4x1024x1 .f32) (main_v13 : IVec S_ 1) (main_v16 : IVec S4x1024x1 1) : IVec S_ 1 :=
  let main_c_5 : IVec S_ 1 := constantI S_ 1 1#1
  let main_v17 : IVec S_ 1 := (fun x v => Host.reduce IntOp.andi x v reducesTo_S4x1024x1_S_d0_1_2 h_S_) main_v16 main_c_5
  let main_v18 : IVec S_ 1 := andi main_v13 main_v17
  let main_v19 : FVec F S4x1024x1 .f32 := Host.absf main_arg4
  let main_cst_6 : FVec F S_ .f32 := constant S_ .f32 0x7F800000#32
  let main_v20 : FVec F S4x1024x1 .f32 := broadcastInDim S4x1024x1 ![] bcast_S_S4x1024x1 main_cst_6
  let main_v21 : IVec S4x1024x1 1 := cmpf .olt main_v19 main_v20
  let main_c_7 : IVec S_ 1 := constantI S_ 1 1#1
  let main_v22 : IVec S_ 1 := (fun x v => Host.reduce IntOp.andi x v reducesTo_S4x1024x1_S_d0_1_2 h_S_) main_v21 main_c_7
  let main_v23 : IVec S_ 1 := andi main_v18 main_v22
  main_v23

def fn {F : FTy → Type} [FloatOps F] (main_arg0 : FVec F S1024x1024 .f32) (main_arg1 : FVec F S1024x1024 .f32) (main_arg2 : FVec F S1024 .f32) (main_arg3 : FVec F S4x1024x1 .f32) (main_arg4 : FVec F S4x1024x1 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S4x1024x1 .f32 := Host.absf main_arg3
  let main_cst_4 : FVec F S_ .f32 := constant S_ .f32 0x7F800000#32
  let main_v15 : FVec F S4x1024x1 .f32 := broadcastInDim S4x1024x1 ![] bcast_S_S4x1024x1 main_cst_4
  let main_v16 : IVec S4x1024x1 1 := cmpf .olt main_v14 main_v15
  fn_part1 (F := F) main_arg4 main_v13 main_v16
-- ==== Kernel.lean ====
abbrev S1024x1024 : Shape := ⟨2, ![1024, 1024]⟩
abbrev S1024 : Shape := ⟨1, ![1024]⟩
abbrev S4x1024x1 : Shape := ⟨3, ![4, 1024, 1]⟩
abbrev S256x1024 : Shape := ⟨2, ![256, 1024]⟩
abbrev S1x1024 : Shape := ⟨2, ![1, 1024]⟩
abbrev S1x1024x1 : Shape := ⟨3, ![1, 1024, 1]⟩
abbrev S1024x1 : Shape := ⟨2, ![1024, 1]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024, .f32⟩
  | .hbm, ⟨3, _⟩ => ⟨S4x1024x1, .f32⟩
  | .hbm, ⟨4, _⟩ => ⟨S4x1024x1, .f32⟩
  | .hbm, ⟨5, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S1024, .f32⟩
  | .local _ .vmem, ⟨4, _⟩ => ⟨S4x1024x1, .f32⟩
  | .local _ .vmem, ⟨5, _⟩ => ⟨S4x1024x1, .f32⟩
  | .local _ .vmem, ⟨6, _⟩ => ⟨S256x1024, .f32⟩
  | .local _ .vmem, ⟨7, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  inb_S4x1024x1_S1x1024x1_0_0_0 : ∀ a, (![0, 0, 0] : Fin 3 → Nat) a + S1x1024x1.size a ≤ S4x1024x1.size a
  h_S1x1024x1 : 0 < S1x1024x1.numel
  shapeCasts_S1x1024x1_S1024x1 : S1x1024x1.ShapeCasts S1024x1
  shapeCasts_S1024x1_S1024 : S1024x1.ShapeCasts S1024
  reduces_S256x1024_S256 : S256x1024.Reduces [1] S256
  shapeCasts_S256_S256x1 : S256.ShapeCasts S256x1
  broadcasts_S256x1_S256x1024 : S256x1.Broadcasts S256x1024
  inb_S4x1024x1_S1x1024x1_1_0_0 : ∀ a, (![1, 0, 0] : Fin 3 → Nat) a + S1x1024x1.size a ≤ S4x1024x1.size a
  inb_S4x1024x1_S1x1024x1_2_0_0 : ∀ a, (![2, 0, 0] : Fin 3 → Nat) a + S1x1024x1.size a ≤ S4x1024x1.size a
  inb_S4x1024x1_S1x1024x1_3_0_0 : ∀ a, (![3, 0, 0] : Fin 3 → Nat) a + S1x1024x1.size a ≤ S4x1024x1.size a
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S1024x1024.size a
  hwx0_0 : ∀ i : grid0.Coords, EltTy.bits .f32 = 32 ∨ (Rect.block (s := S1024x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1024x1.size a ≤ S4x1024x1.size a
  hwx0_3 : ∀ i : grid0.Coords, EltTy.bits .f32 = 32 ∨ (Rect.block (s := S4x1024x1) S4x1024x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x1024x1.size a ≤ S4x1024x1.size a
  hwx0_4 : ∀ i : grid0.Coords, EltTy.bits .f32 = 32 ∨ (Rect.block (s := S4x1024x1) S4x1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S1024x1024.size a
  hwx0_5 : ∀ i : grid0.Coords, EltTy.bits .f32 = 32 ∨ (Rect.block (s := S1024x1024) S256x1024.size (cc0_transform_5 i) (hinb0_5 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x1024x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4x1024x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S1024 : Shape := ⟨1, ![1024]⟩
abbrev S4x1024x1 : Shape := ⟨3, ![4, 1024, 1]⟩
abbrev S1x1024 : Shape := ⟨2, ![1, 1024]⟩
abbrev S1x1024x1 : Shape := ⟨3, ![1, 1024, 1]⟩
abbrev S1024x1 : Shape := ⟨2, ![1024, 1]⟩

abbrev nBuf : Space → Nat
  | .hbm => 57
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024, .f32⟩
  | .hbm, ⟨3, _⟩ => ⟨S4x1024x1, .f32⟩
  | .hbm, ⟨4, _⟩ => ⟨S4x1024x1, .f32⟩
  | .hbm, ⟨5, _⟩ => ⟨S1024x1024, .f32⟩
  | .hbm, ⟨6, _⟩ => ⟨S1x1024, .f32⟩
  | .hbm, ⟨7, _⟩ => ⟨S1024x1024, .f32⟩
  | .hbm, ⟨8, _⟩ => ⟨S1024x1024, .f32⟩
  | .hbm, ⟨9, _⟩ => ⟨S1x1024x1, .f32⟩
  | .hbm, ⟨10, _⟩ => ⟨S1024x1, .f32⟩
  | .hbm, ⟨11, _⟩ => ⟨S1024x1, .f32⟩
  | .hbm, ⟨12, _⟩ => ⟨S1024x1024, .f32⟩
  | .hbm, ⟨13, _⟩ => ⟨S1024x1024, .f32⟩
  | .hbm, ⟨14, _⟩ => ⟨S1x1024x1, .f32⟩
  | .hbm, ⟨15, _⟩ => ⟨S1024x1, .f32⟩
  | .hbm, ⟨16, _⟩ => ⟨S1024, .f32⟩
  | .hbm, ⟨17, _⟩ => ⟨S1x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1x1024x1, .f32⟩
  | .hbm, ⟨22, _⟩ => ⟨S1024x1, .f32⟩
  | .hbm, ⟨23, _⟩ => ⟨S1024x1, .f32⟩
  | .hbm, ⟨24, _⟩ => ⟨S1024x1024, .f32⟩
  | .hbm, ⟨25, _⟩ => ⟨S1024x1024, .f32⟩
  | .hbm, ⟨26, _⟩ => ⟨S1x1024x1, .f32⟩
  | .hbm, ⟨27, _⟩ => ⟨S1024x1, .f32⟩
  | .hbm, ⟨28, _⟩ => ⟨S1024, .f32⟩
  | .hbm, ⟨29, _⟩ => ⟨S1x1024, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S1x1024x1, .f32⟩
  | .hbm, ⟨34, _⟩ => ⟨S1024x1, .f32⟩
  | .hbm, ⟨35, _⟩ => ⟨S1024x1, .f32⟩
  | .hbm, ⟨36, _⟩ => ⟨S1024x1024, .f32⟩
  | .hbm, ⟨37, _⟩ => ⟨S1024x1024, .f32⟩
  | .hbm, ⟨38, _⟩ => ⟨S1x1024x1, .f32⟩
  | .hbm, ⟨39, _⟩ => ⟨S1024x1, .f32⟩
  | .hbm, ⟨40, _⟩ => ⟨S1024, .f32⟩
  | .hbm, ⟨41, _⟩ => ⟨S1x1024, .f32⟩
  | .hbm, ⟨42, _⟩ => ⟨S1024x1024, .f32⟩
  | .hbm, ⟨43, _⟩ => ⟨S1024x1024, .f32⟩
  | .hbm, ⟨44, _⟩ => ⟨S1024x1024, .f32⟩
  | .hbm, ⟨45, _⟩ => ⟨S1x1024x1, .f32⟩
  | .hbm, ⟨46, _⟩ => ⟨S1024x1, .f32⟩
  | .hbm, ⟨47, _⟩ => ⟨S1024x1, .f32⟩
  | .hbm, ⟨48, _⟩ => ⟨S1024x1024, .f32⟩
  | .hbm, ⟨49, _⟩ => ⟨S1024x1024, .f32⟩
  | .hbm, ⟨50, _⟩ => ⟨S1x1024x1, .f32⟩
  | .hbm, ⟨51, _⟩ => ⟨S1024x1, .f32⟩
  | .hbm, ⟨52, _⟩ => ⟨S1024, .f32⟩
  | .hbm, ⟨53, _⟩ => ⟨S1x1024, .f32⟩
  | .hbm, ⟨54, _⟩ => ⟨S1024x1024, .f32⟩
  | .hbm, ⟨55, _⟩ => ⟨S1024x1024, .f32⟩
  | .hbm, ⟨56, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  slices_S4x1024x1_S1x1024x1_0_0_0 : S4x1024x1.Slices ![0, 0, 0] S1x1024x1
  shapeCasts_S1x1024x1_S1024x1 : S1x1024x1.ShapeCasts S1024x1
  bcast_S1024x1_S1024x1024_0_1 : S1024x1.BroadcastsInDim S1024x1024 (![0, 1] : Fin 2 → Fin S1024x1024.rank)
  shapeCasts_S1024x1_S1024 : S1024x1.ShapeCasts S1024
  slices_S4x1024x1_S1x1024x1_1_0_0 : S4x1024x1.Slices ![1, 0, 0] S1x1024x1
  slices_S4x1024x1_S1x1024x1_2_0_0 : S4x1024x1.Slices ![2, 0, 0] S1x1024x1
  slices_S4x1024x1_S1x1024x1_3_0_0 : S4x1024x1.Slices ![3, 0, 0] S1x1024x1
  dot_S1024x1024_S1024x1024_S1024x1024_1_0_0_1_n_n_wf : DotDims.WF S1024x1024 S1024x1024 S1024x1024 [1] [0] [0] [1] [] []
  dot_S1024x1024_S1024x1_S1024x1_1_0_0_1_n_n_wf : DotDims.WF S1024x1024 S1024x1 S1024x1 [1] [0] [0] [1] [] []

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1_S1024x1_1_0_0_1_n_n : DotDims S1024x1024 S1024x1 S1024x1 where
  lhsContracting := [1]
  rhsContracting := [0]
  lhsNonContracting := [0]
  rhsNonContracting := [1]
  lhsBatch := []
  rhsBatch := []
  wf := dot_S1024x1024_S1024x1_S1024x1_1_0_0_1_n_n_wf

class Facts : Prop extends Facts₀ where

variable [Facts]
-- ==== Proof.CrossSpec.lean ====
/-
  What both programs compute, one row of the batch at a time.

  A row `xr` of the input (1024 features) is first sent through a dense layer:
  `enc xr W b q = (∑ k, xr k * W[k, q]) + b[q]`. Call the result `h`. Then four cross layers act on the row, each
  one with its own weight column `w` and bias column `bb` (layer `l` of the two [4, 1024, 1] stacks):
  `cross h w bb xl q = (h q * (∑ j, xl j * w j) + bb q) + xl q`, that is, the row `xl` is contracted against
  `w` to ONE scalar, which scales the encoder's row `h`; the bias and the previous row are added. The first layer
  starts from `xl = h`. `row` is the four layers in order and `G` is the whole [1024, 1024] result: entry (r, q) is
  `row` of row `r` of the input at `q`. Every operation is on the extended reals; no law beyond the definitions is
  used anywhere (both programs add and multiply in the same order), so nothing here needs finiteness.
-/
import Idealize.ShloMosaic.PureOps.Ideal
import Idealize.ShloMosaic.Lib.ValueIdx

noncomputable section

open scoped BigOperators

namespace Cert.CrossNet

open Idealize.ShloMosaic Idealize.ShloMosaic.ValueIdx

/-- A [1024, 1024] array of extended reals. -/
abbrev Mat : Type := (⟨2, ![1024, 1024]⟩ : Shape).Idx → EReal
/-- A [1024] array. -/
abbrev Col : Type := (⟨1, ![1024]⟩ : Shape).Idx → EReal
/-- A [4, 1024, 1] stack of four columns. -/
abbrev Stack : Type := (⟨3, ![4, 1024, 1]⟩ : Shape).Idx → EReal

/-- The dense layer on one row: the row against each column of `W`, plus the bias. -/
def enc (xr : Fin 1024 → EReal) (W : Mat) (b : Col) : Fin 1024 → EReal :=
  fun q => (∑ k : Fin 1024, xr k * W (ix2 k q)) + b (ix1 q)

/-- One cross layer on one row: `h` scaled by the scalar `⟨xl, w⟩`, plus the bias, plus `xl`. -/
def cross (h w bb xl : Fin 1024 → EReal) : Fin 1024 → EReal :=
  fun q => (h q * (∑ j : Fin 1024, xl j * w j) + bb q) + xl q

/-- Column `l` of a stack. -/
def layer (P : Stack) (l : Fin 4) : Fin 1024 → EReal := fun j => P (ix3 l j (0 : Fin 1))

/-- The four cross layers after the dense layer, on one row. -/
def row (xr : Fin 1024 → EReal) (W : Mat) (b : Col) (ws bs : Stack) : Fin 1024 → EReal :=
  cross (enc xr W b) (layer ws 3) (layer bs 3)
    (cross (enc xr W b) (layer ws 2) (layer bs 2)
      (cross (enc xr W b) (layer ws 1) (layer bs 1)
        (cross (enc xr W b) (layer ws 0) (layer bs 0) (enc xr W b))))

/-- Row `r` of a matrix. -/
def rowOf (x : Mat) (r : Fin 1024) : Fin 1024 → EReal := fun k => x (ix2 r k)

/-- The whole result: entry (r, q) is `row` of the input's row `r`, at `q`. -/
def G (x W : Mat) (b : Col) (ws bs : Stack) : Mat :=
  fun i => row (rowOf x ⟨(i 0).val, (i 0).isLt⟩) W b ws bs ⟨(i 1).val, (i 1).isLt⟩

theorem G_ix2 (x W : Mat) (b : Col) (ws bs : Stack) (r q : Fin 1024) :
    G x W b ws bs (ix2 r q) = row (rowOf x r) W b ws bs q := rfl

end Cert.CrossNet

end
-- ==== Proof.KernelRows.lean ====
/-
  The kernel body's value on one row of its block.

  The body keeps the encoder's block `h = x_blk · W + b` ([256, 1024]) and runs the four cross layers on it, each as
  "multiply by the layer's weight row, sum along the lanes, scale `h` by the row sums, add the bias row, add the
  previous block". Its store's payload is therefore `stepV h (stepV h (stepV h (stepV h h …) …) …) …` (`pay_eq`, by
  unfolding), where `stepV` is one layer over whole [256, 1024] blocks. Read at row `p` of the block:
  the weight and bias re-layings `spread` read column entry `q` whatever the row (`spread_apply`), the lane sum
  broadcast back is the sum over the row (`rowsum_apply`), the matmul into a zero accumulator is the row against the
  columns of `W` (`dense_apply`, with a change of format the identity at the extended reals) — so row `p` of
  `stepV` is `cross` of the rows (`stepV_row`), row `p` of the encoder's block is `enc` (`enc_row`), and row `p` of
  the payload is `row` of row `p` of the input block (`pay_row`).
-/
import proofs.«144102_j17514876633094_1_alg».proof.Proof.Gen.KernelIdeal.Skeleton
import proofs.«144102_j17514876633094_1_alg».proof.Proof.CrossSpec
import Idealize.ShloMosaic.Lib.Pipeline.Value
import Idealize.ShloMosaic.Lib.ValueIdx
import Idealize.ShloMosaic.PureOps.Ideal.Laws

noncomputable section

open scoped BigOperators

namespace Cert.KernelIdeal.Rows

open Cert.KernelIdeal Cert.KernelIdeal.Gen Idealize.ShloMosaic Idealize.ShloMosaic.ValueIdx Cert.CrossNet

variable {F : FTy → Type} [FloatOps F]

/-! ## One layer over whole blocks -/

/-- A [1, 1024, 1] column re-laid as a row and repeated down the block's 256 rows. -/
def spread (v : Vec F S1x1024x1 .f32) : FVec F S256x1024 .f32 :=
  broadcastTo S256x1024 (shapeCast S1x1024 (shapeCast S1024 (shapeCast S1024x1 v shapeCasts_S1x1024x1_S1024x1)
    shapeCasts_S1024x1_S1024) shapeCasts_S1024_S1x1024) broadcasts_S1x1024_S256x1024

/-- The lane sum of each row, repeated along the row. -/
def rowsum (v : FVec F S256x1024 .f32) : FVec F S256x1024 .f32 :=
  broadcastTo S256x1024 (shapeCast S256x1 (multiReduction .add [1] S256 v 0x00000000#32 reduces_S256x1024_S256 (.inl rfl) rfl)
    shapeCasts_S256_S256x1) broadcasts_S256x1_S256x1024

/-- One cross layer over blocks: `h · rowsum (xl · w) + bb + xl`. -/
def stepV (h xl : FVec F S256x1024 .f32) (wv bv : Vec F S1x1024x1 .f32) : FVec F S256x1024 .f32 :=
  addf (addf (mulf h (rowsum (mulf xl (spread wv)))) (spread bv)) xl

/-- The store's payload is the four layers over the encoder's block, the first one starting from that block. -/
theorem pay_eq (v0 : Vec F S256x1024 .f32) (v2 : Vec F S1024x1024 .f32) (v5 : Vec F S1024 .f32)
    (v9 v12 v26 v29 v43 v46 v60 v63 : Vec F S1x1024x1 .f32) :
    k0_pay1 (k0_pay2 v0 v2 v5) (k0_pay3 v0 v2 v5 v9 v12) (k0_pay4 v29) (k0_pay5 v0 v2 v5 v9 v12 v26) v43 v46 v60 v63
      = stepV (k0_pay2 v0 v2 v5) (stepV (k0_pay2 v0 v2 v5) (stepV (k0_pay2 v0 v2 v5)
          (stepV (k0_pay2 v0 v2 v5) (k0_pay2 v0 v2 v5) v9 v12) v26 v29) v43 v46) v60 v63 := rfl

/-! ## The re-layings read at an index -/

/-- The spread column at (p, q) is the column's entry q. -/
theorem spread_apply (v : Vec F S1x1024x1 .f32) (p : Fin 256) (q : Fin 1024) :
    spread v (ix2 p q) = v (ix3 (0 : Fin 1) q (0 : Fin 1)) := by
  unfold spread
  refine (broadcastTo_apply _ _ (ix2 p q) (ix2 (0 : Fin 1) q) (fun a => match a with
    | ⟨0, _⟩ => by show 0 = (if (1 : Nat) = 1 then 0 else p.val); rw [if_pos rfl]
    | ⟨1, _⟩ => by show q.val = (if (1024 : Nat) = 1 then 0 else q.val); rw [if_neg (by decide)])).trans ?_
  refine (shapeCast_apply _ _ (ix2 (0 : Fin 1) q) (ix1 q) (by
    rw [Shape.rowMajor_val_one, Shape.rowMajor_val_two]; show q.val = 0 * 1024 + q.val; omega)).trans ?_
  refine (shapeCast_apply _ _ (ix1 q) (ix2 q (0 : Fin 1)) (by
    rw [Shape.rowMajor_val_two, Shape.rowMajor_val_one]; show q.val * 1 + 0 = q.val; omega)).trans ?_
  exact shapeCast_apply _ _ (ix2 q (0 : Fin 1)) (ix3 (0 : Fin 1) q (0 : Fin 1)) (by
    rw [Shape.rowMajor_val_three, Shape.rowMajor_val_two]; show (0 * 1024 + q.val) * 1 + 0 = q.val * 1 + 0; omega)

/-- The bias row of the dense layer at (p, q) is the bias at q. -/
theorem bias_apply (v : Vec F S1024 .f32) (p : Fin 256) (q : Fin 1024) :
    broadcastTo S256x1024 (shapeCast S1x1024 v shapeCasts_S1024_S1x1024) broadcasts_S1x1024_S256x1024 (ix2 p q) = v (ix1 q) := by
  refine (broadcastTo_apply _ _ (ix2 p q) (ix2 (0 : Fin 1) q) (fun a => match a with
    | ⟨0, _⟩ => by show 0 = (if (1 : Nat) = 1 then 0 else p.val); rw [if_pos rfl]
    | ⟨1, _⟩ => by show q.val = (if (1024 : Nat) = 1 then 0 else q.val); rw [if_neg (by decide)])).trans ?_
  exact shapeCast_apply _ _ (ix2 (0 : Fin 1) q) (ix1 q) (by
    rw [Shape.rowMajor_val_one, Shape.rowMajor_val_two]; show q.val = 0 * 1024 + q.val; omega)

/-- The row sums at (p, q): the sum of row p. -/
theorem rowsum_apply (v : FVec Ideal S256x1024 .f32) (p : Fin 256) (q : Fin 1024) :
    rowsum v (ix2 p q) = ∑ k : Fin 1024, v (ix2 p k) := by
  unfold rowsum
  refine (broadcastTo_apply _ _ (ix2 p q) (ix2 p (0 : Fin 1)) (fun a => match a with
    | ⟨0, _⟩ => by show p.val = (if (256 : Nat) = 1 then 0 else p.val); rw [if_neg (by decide)]
    | ⟨1, _⟩ => by show 0 = (if (1 : Nat) = 1 then 0 else q.val); rw [if_pos rfl])).trans ?_
  refine (shapeCast_apply _ _ (ix2 p (0 : Fin 1)) (ix1 p) (by
    rw [Shape.rowMajor_val_one, Shape.rowMajor_val_two]; show p.val = p.val * 1 + 0; omega)).trans ?_
  refine (Ideal.multiReduction_add_single v _ reduces_S256x1024_S256 _ _ (ix1 p)).trans ?_
  exact Finset.sum_congr rfl fun k _ => congrArg v (funext fun a => Fin.ext (by
    match a with
    | ⟨0, _⟩ => rfl
    | ⟨1, _⟩ => rfl))

/-! ## The matmul read at an index

The body's one `tpu.matmul` contracts axis 1 of the block with axis 0 of `W`. Its operand indices at an output index and a
contraction position, axis by axis: -/

theorem lhs_axis0 (i : S256x1024.Idx) (c : dot_S256x1024_S1024x1024_S256x1024_1_0_0_1_n_n.contr.Idx) :
    (dot_S256x1024_S1024x1024_S256x1024_1_0_0_1_n_n.lhsIdx i c 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_axis1 (i : S256x1024.Idx) (c : dot_S256x1024_S1024x1024_S256x1024_1_0_0_1_n_n.contr.Idx) :
    (dot_S256x1024_S1024x1024_S256x1024_1_0_0_1_n_n.lhsIdx i c 1).val = (c ⟨0, by decide⟩).val :=
  dot_S256x1024_S1024x1024_S256x1024_1_0_0_1_n_n.lhsIdx_val_of_single rfl i c
theorem rhs_axis0 (i : S256x1024.Idx) (c : dot_S256x1024_S1024x1024_S256x1024_1_0_0_1_n_n.contr.Idx) :
    (dot_S256x1024_S1024x1024_S256x1024_1_0_0_1_n_n.rhsIdx i c 0).val = (c ⟨0, by decide⟩).val :=
  dot_S256x1024_S1024x1024_S256x1024_1_0_0_1_n_n.rhsIdx_val_of_single rfl i c
theorem rhs_axis1 (i : S256x1024.Idx) (c : dot_S256x1024_S1024x1024_S256x1024_1_0_0_1_n_n.contr.Idx) :
    (dot_S256x1024_S1024x1024_S256x1024_1_0_0_1_n_n.rhsIdx i c 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The matmul into the zero accumulator at (p, q): row p of the left operand against column q of the right one. -/
theorem dense_apply (a : FVec Ideal S256x1024 .bf16) (w : FVec Ideal S1024x1024 .bf16) (p : Fin 256) (q : Fin 1024) :
    matmul dot_S256x1024_S1024x1024_S256x1024_1_0_0_1_n_n none a w (constant S256x1024 .f32 0x00000000#32) (ix2 p q)
      = ∑ k : Fin 1024, a (ix2 p k) * w (ix2 k q) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p q) ((contrEquiv1 dot_S256x1024_S1024x1024_S256x1024_1_0_0_1_n_n 1024 rfl rfl).symm k) = ix2 p k := funext fun b => Fin.ext (by
    match b with
    | ⟨0, _⟩ => exact lhs_axis0 _ _
    | ⟨1, _⟩ => exact (lhs_axis1 _ _).trans hk)
  have er : dot_S256x1024_S1024x1024_S256x1024_1_0_0_1_n_n.rhsIdx (ix2 p q) ((contrEquiv1 dot_S256x1024_S1024x1024_S256x1024_1_0_0_1_n_n 1024 rfl rfl).symm k) = ix2 k q := funext fun b => Fin.ext (by
    match b with
    | ⟨0, _⟩ => exact (rhs_axis0 _ _).trans hk
    | ⟨1, _⟩ => exact rhs_axis1 _ _)
  rw [el, er]

/-! ## Rows -/

/-- Row p of a block. -/
abbrev brow (v : FVec Ideal S256x1024 .f32) (p : Fin 256) : Fin 1024 → EReal := fun q => v (ix2 p q)

/-- A loaded [1, 1024, 1] column as a function of its middle coordinate. -/
def colOf (v : Vec Ideal S1x1024x1 .f32) : Fin 1024 → EReal := fun j => v (ix3 (0 : Fin 1) j (0 : Fin 1))

/-- Row p of one layer over blocks is the layer on the rows. -/
theorem stepV_row (h xl : FVec Ideal S256x1024 .f32) (wv bv : Vec Ideal S1x1024x1 .f32) (p : Fin 256) :
    brow (stepV h xl wv bv) p = cross (brow h p) (colOf wv) (colOf bv) (brow xl p) := by
  funext q
  show (h (ix2 p q) * rowsum (mulf xl (spread wv)) (ix2 p q) + spread bv (ix2 p q)) + xl (ix2 p q) = _
  rw [rowsum_apply, spread_apply]
  unfold cross brow colOf
  refine congrArg (fun s => (h (ix2 p q) * s + bv (ix3 (0 : Fin 1) q (0 : Fin 1))) + xl (ix2 p q)) ?_
  refine Finset.sum_congr rfl fun k _ => ?_
  show xl (ix2 p k) * spread wv (ix2 p k) = _
  rw [spread_apply]

/-- Row p of the encoder's block is the dense layer on row p of the loaded input block. -/
theorem enc_row (v0 : Vec Ideal S256x1024 .f32) (v2 : Vec Ideal S1024x1024 .f32) (v5 : Vec Ideal S1024 .f32) (p : Fin 256) :
    brow (k0_pay2 v0 v2 v5) p = enc (brow v0 p) v2 v5 := by
  funext q
  unfold k0_pay2
  show matmul (F := Ideal) dot_S256x1024_S1024x1024_S256x1024_1_0_0_1_n_n none (truncf (F := Ideal) .bf16 v0 bitsLt_bf16_f32) (truncf (F := Ideal) .bf16 v2 bitsLt_bf16_f32)
        (constant (F := Ideal) S256x1024 .f32 0x00000000#32) (ix2 p q)
      + broadcastTo S256x1024 (shapeCast S1x1024 v5 shapeCasts_S1024_S1x1024) broadcasts_S1x1024_S256x1024 (ix2 p q) = _
  rw [dense_apply, bias_apply]
  rfl

/-- Row p of the payload: the four layers on row p of the input block, the layers' columns the loaded ones. -/
theorem pay_row (v0 : Vec Ideal S256x1024 .f32) (v2 : Vec Ideal S1024x1024 .f32) (v5 : Vec Ideal S1024 .f32)
    (v9 v12 v26 v29 v43 v46 v60 v63 : Vec Ideal S1x1024x1 .f32) (p : Fin 256) :
    brow (k0_pay1 (k0_pay2 v0 v2 v5) (k0_pay3 v0 v2 v5 v9 v12) (k0_pay4 v29) (k0_pay5 v0 v2 v5 v9 v12 v26) v43 v46 v60 v63) p
      = cross (enc (brow v0 p) v2 v5) (colOf v60) (colOf v63)
          (cross (enc (brow v0 p) v2 v5) (colOf v43) (colOf v46)
            (cross (enc (brow v0 p) v2 v5) (colOf v26) (colOf v29)
              (cross (enc (brow v0 p) v2 v5) (colOf v9) (colOf v12) (enc (brow v0 p) v2 v5)))) := by
  rw [pay_eq, stepV_row, stepV_row, stepV_row, stepV_row, enc_row]

end Cert.KernelIdeal.Rows

end
-- ==== Proof.KernelArray.lean ====
/-
  From the kernel's blocks to its whole result array.

  The grid has four points; point `t` stages rows `256 t … 256 t + 255` of the input, all of `W`, `b` and the two
  stacks, and writes back rows `256 t … 256 t + 255` of the result. The body's store leaves in the output block, at row
  `p`, `row` of row `p` of the input block (`out_row`: the payload's rows, the whole-block loads read through, each
  layer's loaded column the stack's column `l`). Row `p` of the input block at `t` is row `256 t + p` of the input
  array, and the other windows' blocks are their whole arrays (`in_row`, `blk1` … `blk4`: a block's element sits at
  block index × block size + its coordinate, and those block indices are zero). So what point `t` writes back is block
  `t` of `G` of the argument arrays (`flushed_eq`); the four blocks cover the array (`cover`), hence the array ends
  holding `G` (`final`), and the run is the generated blockwise run with its result named so (`run`).
-/
import proofs.«144102_j17514876633094_1_alg».proof.Proof.Gen.KernelIdeal.Value
import proofs.«144102_j17514876633094_1_alg».proof.Proof.KernelRows
import proofs.«144102_j17514876633094_1_alg».proof.Proof.CrossSpec
import Idealize.ShloMosaic.Lib.Pipeline.Value
import Idealize.ShloMosaic.Lib.ValueIdx

noncomputable section

open scoped BigOperators

namespace Cert.KernelIdeal.Whole

open Cert.KernelIdeal Cert.KernelIdeal.Gen Cert.KernelIdeal.Rows Idealize.ShloMosaic Idealize.ShloMosaic.TcCoe Idealize.SL.Sem
open Idealize.ShloMosaic.ValueIdx Cert.CrossNet
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## The output block, row by row -/

/-- A [1, 1024, 1] load from a stack at offsets (l, 0, 0) is the stack's column l. -/
theorem col_ld (x : Vec Ideal S4x1024x1 .f32) (l : Fin 4) (off : Fin 3 → Nat) (inb : ∀ a, off a + S1x1024x1.size a ≤ S4x1024x1.size a)
    (h0 : off 0 = l.val) (h1 : off 1 = 0) (h2 : off 2 = 0) :
    colOf (View.ld x (Rect.unit (s := S4x1024x1) off S1x1024x1.size inb)) = layer x l := by
  funext j
  show x ((Rect.unit (s := S4x1024x1) off S1x1024x1.size inb).idx (ix3 (0 : Fin 1) j (0 : Fin 1))) = x (ix3 l j (0 : Fin 1))
  refine congrArg x (funext fun a => Fin.ext ?_)
  match a with
  | ⟨0, _⟩ => show off 0 + 1 * 0 = l.val; omega
  | ⟨1, _⟩ => show off 1 + 1 * j.val = j.val; omega
  | ⟨2, _⟩ => show off 2 + 1 * 0 = 0; omega

/-- Row p of what the body leaves in the output block: the four layers on row p of the input block. -/
theorem out_row (x0 : Vec Ideal S256x1024 .f32) (x1 : Vec Ideal S1024x1024 .f32) (x2 : Vec Ideal S1024 .f32)
    (x3 x4 : Vec Ideal S4x1024x1 .f32) (p : Fin 256) :
    brow (out0_5 x0 x1 x2 x3 x4) p = row (brow x0 p) x1 x2 x3 x4 := by
  unfold out0_5
  rw [View.canon_unit_zero hz2]
  simp only [View.ld_unit_zero (S := S256x1024) hz2, View.ld_unit_zero (S := S1024x1024) hz2, View.ld_unit_zero (S := S1024) hz1]
  rw [pay_row]
  rw [col_ld x3 0 ![0, 0, 0] inb_S4x1024x1_S1x1024x1_0_0_0 rfl rfl rfl, col_ld x4 0 ![0, 0, 0] inb_S4x1024x1_S1x1024x1_0_0_0 rfl rfl rfl,
    col_ld x3 1 ![1, 0, 0] inb_S4x1024x1_S1x1024x1_1_0_0 rfl rfl rfl, col_ld x4 1 ![1, 0, 0] inb_S4x1024x1_S1x1024x1_1_0_0 rfl rfl rfl,
    col_ld x3 2 ![2, 0, 0] inb_S4x1024x1_S1x1024x1_2_0_0 rfl rfl rfl, col_ld x4 2 ![2, 0, 0] inb_S4x1024x1_S1x1024x1_2_0_0 rfl rfl rfl,
    col_ld x3 3 ![3, 0, 0] inb_S4x1024x1_S1x1024x1_3_0_0 rfl rfl rfl, col_ld x4 3 ![3, 0, 0] inb_S4x1024x1_S1x1024x1_3_0_0 rfl rfl rfl]
  rfl

/-! ## The windows' blocks as parts of the argument arrays -/

/-- The printed index maps over the four grid points: the input's and the output's row blocks move together (block t),
    and every other block index is zero. -/
theorem idx_facts : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 1) = 0
    ∧ win0_3.index t (0 : Fin 3) = 0 ∧ win0_3.index t (1 : Fin 3) = 0 ∧ win0_3.index t (2 : Fin 3) = 0
    ∧ win0_4.index t (0 : Fin 3) = 0 ∧ win0_4.index t (1 : Fin 3) = 0 ∧ win0_4.index t (2 : Fin 3) = 0 :=
  (by decide +kernel : ∀ t : Fin grid0.N, _)

/-- Window 1's block is all of `W`. -/
theorem blk1 (c : Dev nD) (t : Fin cfg0.N) : (iblk m c 1 t : Vec Ideal S1024x1024 .f32) = V m c main_arg1 := by
  obtain ⟨-, -, -, -, e0, e1, -⟩ := idx_facts t
  funext y
  show V m c main_arg1 (((cfg0.win 1).blk t).view.emb y) = V m c main_arg1 y
  refine congrArg (V m c main_arg1) (funext fun a => Fin.ext ?_)
  match a with
  | ⟨0, _⟩ => show win0_1.index t (0 : Fin 2) * 1024 + 1 * (y 0).val = (y 0).val; omega
  | ⟨1, _⟩ => show win0_1.index t (1 : Fin 2) * 1024 + 1 * (y 1).val = (y 1).val; omega

/-- Window 2's block is all of `b`. -/
theorem blk2 (c : Dev nD) (t : Fin cfg0.N) : (iblk m c 2 t : Vec Ideal S1024 .f32) = V m c main_arg2 := by
  obtain ⟨-, -, -, -, -, -, e0, -⟩ := idx_facts t
  funext y
  show V m c main_arg2 (((cfg0.win 2).blk t).view.emb y) = V m c main_arg2 y
  refine congrArg (V m c main_arg2) (funext fun a => Fin.ext ?_)
  match a with
  | ⟨0, _⟩ => show win0_2.index t (0 : Fin 1) * 1024 + 1 * (y 0).val = (y 0).val; omega

/-- Window 3's block is the whole weight stack. -/
theorem blk3 (c : Dev nD) (t : Fin cfg0.N) : (iblk m c 3 t : Vec Ideal S4x1024x1 .f32) = V m c main_arg3 := by
  obtain ⟨-, -, -, -, -, -, -, e0, e1, e2, -⟩ := idx_facts t
  funext y
  show V m c main_arg3 (((cfg0.win 3).blk t).view.emb y) = V m c main_arg3 y
  refine congrArg (V m c main_arg3) (funext fun a => Fin.ext ?_)
  match a with
  | ⟨0, _⟩ => show win0_3.index t (0 : Fin 3) * 4 + 1 * (y 0).val = (y 0).val; omega
  | ⟨1, _⟩ => show win0_3.index t (1 : Fin 3) * 1024 + 1 * (y 1).val = (y 1).val; omega
  | ⟨2, _⟩ => show win0_3.index t (2 : Fin 3) * 1 + 1 * (y 2).val = (y 2).val; omega

/-- Window 4's block is the whole bias stack. -/
theorem blk4 (c : Dev nD) (t : Fin cfg0.N) : (iblk m c 4 t : Vec Ideal S4x1024x1 .f32) = V m c main_arg4 := by
  obtain ⟨-, -, -, -, -, -, -, -, -, -, e0, e1, e2⟩ := idx_facts t
  funext y
  show V m c main_arg4 (((cfg0.win 4).blk t).view.emb y) = V m c main_arg4 y
  refine congrArg (V m c main_arg4) (funext fun a => Fin.ext ?_)
  match a with
  | ⟨0, _⟩ => show win0_4.index t (0 : Fin 3) * 4 + 1 * (y 0).val = (y 0).val; omega
  | ⟨1, _⟩ => show win0_4.index t (1 : Fin 3) * 1024 + 1 * (y 1).val = (y 1).val; omega
  | ⟨2, _⟩ => show win0_4.index t (2 : Fin 3) * 1 + 1 * (y 2).val = (y 2).val; omega

/-- Row p of the input block at point t is row `256 t + p` of the input array. -/
theorem in_row (c : Dev nD) (t : Fin cfg0.N) (p : Fin 256) (r : Fin 1024) (hr : r.val = 256 * t.val + p.val) :
    brow (iblk m c 0 t) p = rowOf (V m c main_arg0) r := by
  obtain ⟨e0, e1, -⟩ := idx_facts t
  funext k
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 256 + 1 * p.val = r.val; omega
  | ⟨1, _⟩ => show win0_0.index t (1 : Fin 2) * 1024 + 1 * k.val = k.val; omega

/-! ## What a point writes back, and the array after the run -/

/-- The kernel's whole result, as a function of the argument arrays as the region finds them. -/
abbrev result (c : Dev nD) : S1024x1024.Idx → EReal :=
  G (V m c main_arg0) (V m c main_arg1) (V m c main_arg2) (V m c main_arg3) (V m c main_arg4)

/-- Point t writes back block t of `result`. -/
theorem flushed_eq (c : Dev nD) (t : Fin cfg0.N) :
    (dats m 0 c).flushed 5 t = ((cfg0.win 5).blk t).view.read (Elt Ideal) (result m c) := by
  rw [Cert.KernelIdeal.Value.flushed5]
  obtain ⟨-, -, e0, e1, -⟩ := idx_facts t
  have hN : t.val < 4 := lt_of_lt_of_eq t.isLt N_0
  funext j
  have hj0 : (j 0).val < 256 := (j 0).isLt
  have hj1 : (j 1).val < 1024 := (j 1).isLt
  have hx : (cfg0.win 5).xinj (grid0.coords t) j = ix2 (⟨(j 0).val, hj0⟩ : Fin 256) (⟨(j 1).val, hj1⟩ : Fin 1024) :=
    funext fun a => Fin.ext (by
      match a with
      | ⟨0, _⟩ => rfl
      | ⟨1, _⟩ => rfl)
  have he : ((cfg0.win 5).blk t).view.emb j
      = ix2 (⟨256 * t.val + (j 0).val, by omega⟩ : Fin 1024) (⟨(j 1).val, hj1⟩ : Fin 1024) :=
    funext fun a => Fin.ext (by
      match a with
      | ⟨0, _⟩ => show win0_5.index t (0 : Fin 2) * 256 + 1 * (j 0).val = 256 * t.val + (j 0).val; omega
      | ⟨1, _⟩ => show win0_5.index t (1 : Fin 2) * 1024 + 1 * (j 1).val = (j 1).val; omega)
  show out0_5 (iblk m c 0 t) (iblk m c 1 t) (iblk m c 2 t) (iblk m c 3 t) (iblk m c 4 t) ((cfg0.win 5).xinj (grid0.coords t) j)
      = result m c (((cfg0.win 5).blk t).view.emb j)
  rw [hx, he]
  show brow (out0_5 (iblk m c 0 t) (iblk m c 1 t) (iblk m c 2 t) (iblk m c 3 t) (iblk m c 4 t)) ⟨(j 0).val, hj0⟩ ⟨(j 1).val, hj1⟩ = _
  rw [out_row (iblk m c 0 t) (iblk m c 1 t) (iblk m c 2 t) (iblk m c 3 t) (iblk m c 4 t) ⟨(j 0).val, hj0⟩]
  refine Eq.trans ?_ (G_ix2 (V m c main_arg0) (V m c main_arg1) (V m c main_arg2) (V m c main_arg3) (V m c main_arg4) _ _).symm
  rw [in_row m c t ⟨(j 0).val, hj0⟩ ⟨256 * t.val + (j 0).val, by omega⟩ rfl, blk1, blk2, blk3, blk4]

/-- An index of the result array is in point t's block iff its row is among the block's 256 rows. -/
theorem mem_blk (t : Fin cfg0.N) (i : S1024x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v0).slice (win0_5.rect t)).set ↔ _
  rw [View.set_slice_whole, Rect.mem_set_unit]
  exact Iff.rfl

/-- Every index of the result array is in the block of the point that holds its row: point `row / 256`. -/
theorem cover (i : S1024x1024.Idx) : ∃ t : Fin cfg0.N, (cfg0.win 5).flush t = true ∧ i ∈ ((cfg0.win 5).blk t).view.set := by
  have hi0 : (i 0).val < 1024 := (i 0).isLt
  have hi1 : (i 1).val < 1024 := (i 1).isLt
  have hN : cfg0.N = 4 := N_0
  have hlt : (i 0).val / 256 < cfg0.N := by rw [hN]; omega
  obtain ⟨-, -, e0, e1, -⟩ := idx_facts ⟨(i 0).val / 256, hlt⟩
  have e0' : win0_5.index ⟨(i 0).val / 256, hlt⟩ (0 : Fin 2) = (i 0).val / 256 := e0
  refine ⟨⟨(i 0).val / 256, hlt⟩, flush0_5 _, ?_⟩
  rw [mem_blk]
  intro a
  match a with
  | ⟨0, _⟩ =>
    show win0_5.index ⟨(i 0).val / 256, hlt⟩ (0 : Fin 2) * 256 ≤ (i 0).val ∧ (i 0).val < win0_5.index ⟨(i 0).val / 256, hlt⟩ (0 : Fin 2) * 256 + 256
    rw [e0']; omega
  | ⟨1, _⟩ =>
    show win0_5.index ⟨(i 0).val / 256, hlt⟩ (1 : Fin 2) * 1024 ≤ (i 1).val ∧ (i 1).val < win0_5.index ⟨(i 0).val / 256, hlt⟩ (1 : Fin 2) * 1024 + 1024
    rw [e1]; omega

/-- So the result array ends holding `result`. -/
theorem final (c : Dev nD) : (dats m 0 c).arrAt 5 cfg0.N = result m c :=
  (dats m 0 c).arrAt_eq_of_cover 5 (result m c) (fun t _ => flushed_eq m c t) cover

/-- The kernel's run, read: the result array at `G` of the argument arrays, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Whole

end
-- ==== Proof.RefRows.lean ====
/-
  The reference's value on one row of the batch.

  The reference is the same computation on the whole [1024, 1024] array: the dense layer `x · W + b`, then four
  times "contract the current array with layer l's weight column (a [1024, 1024] × [1024, 1] product), scale the
  encoder's array by the resulting column, add layer l's bias row, add the current array". One such layer over whole
  arrays is `refStep`, the slice's offsets a parameter; the four stages that close a layer are it at offsets
  (l, 0, 0) (`stage1` … `stage4`, by unfolding). Read at row `r`: the product with a column at (r, 0) is the sum over
  the row (`dotcol_apply`), the sliced column at k is the stack's entry (l, k, 0) (`colR_apply`), so row `r` of a
  layer is `cross` of the rows (`refStep_row`); row `r` of the dense layer is `enc` (`enc_rowR`); and the result
  array is `G` of the arguments (`result_eq`).
-/
import proofs.«144102_j17514876633094_1_alg».proof.Proof.Gen.ReferenceIdeal.Read
import proofs.«144102_j17514876633094_1_alg».proof.Proof.CrossSpec
import Idealize.ShloMosaic.Lib.Pipeline.Value
import Idealize.ShloMosaic.Lib.ValueIdx
import Idealize.ShloMosaic.PureOps.Ideal.Laws

noncomputable section

open scoped BigOperators

namespace Cert.ReferenceIdeal.Rows

open Cert.ReferenceIdeal Cert.ReferenceIdeal.Gen Cert.ReferenceIdeal.Read Idealize.ShloMosaic Idealize.ShloMosaic.ValueIdx Cert.CrossNet

variable {F : FTy → Type} [FloatOps F]

/-! ## One layer over whole arrays -/

/-- Layer column: the [1, 1024, 1] slice of a stack at the given offsets, as a [1024, 1] column. -/
def colR (off : Fin 3 → Nat) (hs : S4x1024x1.Slices off S1x1024x1) (P : (⟨S4x1024x1, .f32⟩ : BufTy).Contents (Elt F)) :
    (⟨S1024x1, .f32⟩ : BufTy).Contents (Elt F) :=
  shapeCast _ (extractStridedSlice S1x1024x1 off P hs) shapeCasts_S1x1024x1_S1024x1

/-- The array contracted with a column, the resulting column repeated along the rows. -/
def dotB (xl : (⟨S1024x1024, .f32⟩ : BufTy).Contents (Elt F)) (cv : (⟨S1024x1, .f32⟩ : BufTy).Contents (Elt F)) :
    (⟨S1024x1024, .f32⟩ : BufTy).Contents (Elt F) :=
  broadcastInDim S1024x1024 ![0, 1] bcast_S1024x1_S1024x1024_0_1 (Host.dotGeneral dot_S1024x1024_S1024x1_S1024x1_1_0_0_1_n_n none xl cv)

/-- The layer's bias column as a row, repeated down the rows. -/
def biasB (off : Fin 3 → Nat) (hs : S4x1024x1.Slices off S1x1024x1) (P : (⟨S4x1024x1, .f32⟩ : BufTy).Contents (Elt F)) :
    (⟨S1024x1024, .f32⟩ : BufTy).Contents (Elt F) :=
  broadcastInDim S1024x1024 ![0, 1] bcast_S1x1024_S1024x1024_0_1 (broadcastInDim S1x1024 ![1] bcast_S1024_S1x1024_1
    (shapeCast _ (colR off hs P) shapeCasts_S1024x1_S1024))

/-- One cross layer over arrays: `h · (xl · w) + bb + xl`. -/
def refStep (off : Fin 3 → Nat) (hs : S4x1024x1.Slices off S1x1024x1) (h xl : (⟨S1024x1024, .f32⟩ : BufTy).Contents (Elt F))
    (x3 x4 : (⟨S4x1024x1, .f32⟩ : BufTy).Contents (Elt F)) : (⟨S1024x1024, .f32⟩ : BufTy).Contents (Elt F) :=
  addf (addf (mulf h (dotB xl (colR off hs x3))) (biasB off hs x4)) xl

section Stages
variable (x0 x1 : (⟨S1024x1024, .f32⟩ : BufTy).Contents (Elt F)) (x2 : (⟨S1024, .f32⟩ : BufTy).Contents (Elt F))
  (x3 x4 : (⟨S4x1024x1, .f32⟩ : BufTy).Contents (Elt F))

/-- The stages that close the four layers, each one layer over the stage before (the first over the dense layer twice). -/
theorem stage1 : val_main_v15 (F := F) x0 x1 x2 x3 x4
    = refStep ![0, 0, 0] slices_S4x1024x1_S1x1024x1_0_0_0 (val_main_v3 (F := F) x0 x1 x2) (val_main_v3 (F := F) x0 x1 x2) x3 x4 := rfl
theorem stage2 : val_main_v27 (F := F) x0 x1 x2 x3 x4
    = refStep ![1, 0, 0] slices_S4x1024x1_S1x1024x1_1_0_0 (val_main_v3 (F := F) x0 x1 x2) (val_main_v15 (F := F) x0 x1 x2 x3 x4) x3 x4 := rfl
theorem stage3 : val_main_v39 (F := F) x0 x1 x2 x3 x4
    = refStep ![2, 0, 0] slices_S4x1024x1_S1x1024x1_2_0_0 (val_main_v3 (F := F) x0 x1 x2) (val_main_v27 (F := F) x0 x1 x2 x3 x4) x3 x4 := rfl
theorem stage4 : val_main_v51 (F := F) x0 x1 x2 x3 x4
    = refStep ![3, 0, 0] slices_S4x1024x1_S1x1024x1_3_0_0 (val_main_v3 (F := F) x0 x1 x2) (val_main_v39 (F := F) x0 x1 x2 x3 x4) x3 x4 := rfl
end Stages

/-! ## Read at an index -/

/-- The [1024, 1024] × [1024, 1] product at (r, 0): row r against the column. -/
theorem dotcol_apply (y0 : FVec Ideal S1024x1024 .f32) (y1 : FVec Ideal S1024x1 .f32) (r : Fin 1024) :
    Host.dotGeneral (F := Ideal) dot_S1024x1024_S1024x1_S1024x1_1_0_0_1_n_n none y0 y1 (ix2 r (0 : Fin 1))
      = ∑ k : Fin 1024, y0 (ix2 r k) * y1 (ix2 k (0 : Fin 1)) := by
  simp only [Host.dotGeneral]
  rw [Ideal.dotGeneral_apply, ← Equiv.sum_comp (contrEquiv1 dot_S1024x1024_S1024x1_S1024x1_1_0_0_1_n_n 1024 rfl rfl).symm]
  refine Finset.sum_congr rfl fun k _ => ?_
  have hk := contrEquiv1_symm_val dot_S1024x1024_S1024x1_S1024x1_1_0_0_1_n_n 1024 rfl rfl k
  have el : dot_S1024x1024_S1024x1_S1024x1_1_0_0_1_n_n.lhsIdx (ix2 r (0 : Fin 1)) ((contrEquiv1 dot_S1024x1024_S1024x1_S1024x1_1_0_0_1_n_n 1024 rfl rfl).symm k) = ix2 r k := funext fun a => Fin.ext (by
    match a with
    | ⟨0, _⟩ => exact lhs_main_v6_0 _ _
    | ⟨1, _⟩ => exact (lhs_main_v6_1 _ _).trans hk)
  have er : dot_S1024x1024_S1024x1_S1024x1_1_0_0_1_n_n.rhsIdx (ix2 r (0 : Fin 1)) ((contrEquiv1 dot_S1024x1024_S1024x1_S1024x1_1_0_0_1_n_n 1024 rfl rfl).symm k) = ix2 k (0 : Fin 1) := funext fun a => Fin.ext (by
    match a with
    | ⟨0, _⟩ => exact (rhs_main_v6_0 _ _).trans hk
    | ⟨1, _⟩ => exact rhs_main_v6_1 _ _)
  rw [el, er]

theorem dotB_apply (xl : (⟨S1024x1024, .f32⟩ : BufTy).Contents (Elt Ideal)) (cv : (⟨S1024x1, .f32⟩ : BufTy).Contents (Elt Ideal)) (r q : Fin 1024) :
    dotB xl cv (ix2 r q) = ∑ k : Fin 1024, xl (ix2 r k) * cv (ix2 k (0 : Fin 1)) := by
  unfold dotB
  refine (broadcastInDim_apply _ bcast_S1024x1_S1024x1024_0_1 _ (ix2 r q) (ix2 r (0 : Fin 1)) (fun a => match a with
    | ⟨0, _⟩ => by show r.val = if (1024 : Nat) = 1 then 0 else r.val; rw [if_neg (by decide)]
    | ⟨1, _⟩ => by show 0 = if (1 : Nat) = 1 then 0 else q.val; rw [if_pos rfl])).trans ?_
  exact dotcol_apply xl cv r

/-- The sliced column at k is the stack's entry (l, k, 0), `l` the slice's offset on the stack axis. -/
theorem colR_apply (off : Fin 3 → Nat) (hs : S4x1024x1.Slices off S1x1024x1) (l : Fin 4) (h0 : off 0 = l.val) (h1 : off 1 = 0) (h2 : off 2 = 0)
    (P : (⟨S4x1024x1, .f32⟩ : BufTy).Contents (Elt F)) (k : Fin 1024) :
    colR off hs P (ix2 k (0 : Fin 1)) = P (ix3 l k (0 : Fin 1)) := by
  unfold colR
  refine (shapeCast_apply _ _ (ix2 k (0 : Fin 1)) (ix3 (0 : Fin 1) k (0 : Fin 1)) (by
    rw [Shape.rowMajor_val_three, Shape.rowMajor_val_two]; show (0 * 1024 + k.val) * 1 + 0 = k.val * 1 + 0; omega)).trans ?_
  exact extractStridedSlice_apply off P hs (ix3 (0 : Fin 1) k (0 : Fin 1)) (ix3 l k (0 : Fin 1)) (fun a => match a with
    | ⟨0, _⟩ => by show l.val = off 0 + 0; omega
    | ⟨1, _⟩ => by show k.val = off 1 + k.val; omega
    | ⟨2, _⟩ => by show 0 = off 2 + 0; omega)

theorem biasB_apply (off : Fin 3 → Nat) (hs : S4x1024x1.Slices off S1x1024x1) (l : Fin 4) (h0 : off 0 = l.val) (h1 : off 1 = 0) (h2 : off 2 = 0)
    (P : (⟨S4x1024x1, .f32⟩ : BufTy).Contents (Elt F)) (r q : Fin 1024) :
    biasB off hs P (ix2 r q) = P (ix3 l q (0 : Fin 1)) := by
  unfold biasB
  refine (broadcastInDim_apply _ bcast_S1x1024_S1024x1024_0_1 _ (ix2 r q) (ix2 (0 : Fin 1) q) (fun a => match a with
    | ⟨0, _⟩ => by show 0 = if (1 : Nat) = 1 then 0 else r.val; rw [if_pos rfl]
    | ⟨1, _⟩ => by show q.val = if (1024 : Nat) = 1 then 0 else q.val; rw [if_neg (by decide)])).trans ?_
  refine (broadcastInDim_apply _ bcast_S1024_S1x1024_1 _ (ix2 (0 : Fin 1) q) (ix1 q) (fun a => match a with
    | ⟨0, _⟩ => by show q.val = if (1024 : Nat) = 1 then 0 else q.val; rw [if_neg (by decide)])).trans ?_
  refine (shapeCast_apply _ _ (ix1 q) (ix2 q (0 : Fin 1)) (by
    rw [Shape.rowMajor_val_two, Shape.rowMajor_val_one]; show q.val * 1 + 0 = q.val; omega)).trans ?_
  exact colR_apply off hs l h0 h1 h2 P q

/-! ## Rows -/

/-- Row r of one layer over arrays is the layer on the rows. -/
theorem refStep_row (off : Fin 3 → Nat) (hs : S4x1024x1.Slices off S1x1024x1) (l : Fin 4) (h0 : off 0 = l.val) (h1 : off 1 = 0) (h2 : off 2 = 0)
    (h xl : (⟨S1024x1024, .f32⟩ : BufTy).Contents (Elt Ideal)) (x3 x4 : (⟨S4x1024x1, .f32⟩ : BufTy).Contents (Elt Ideal)) (r : Fin 1024) :
    rowOf (refStep off hs h xl x3 x4) r = cross (rowOf h r) (layer x3 l) (layer x4 l) (rowOf xl r) := by
  funext q
  show (h (ix2 r q) * dotB xl (colR off hs x3) (ix2 r q) + biasB off hs x4 (ix2 r q)) + xl (ix2 r q) = _
  rw [dotB_apply, biasB_apply off hs l h0 h1 h2]
  unfold cross rowOf layer
  refine congrArg (fun s => (h (ix2 r q) * s + x4 (ix3 l q (0 : Fin 1))) + xl (ix2 r q)) ?_
  exact Finset.sum_congr rfl fun k _ => by rw [colR_apply off hs l h0 h1 h2]

/-- Row r of the dense layer's array. -/
theorem enc_rowR (x0 x1 : (⟨S1024x1024, .f32⟩ : BufTy).Contents (Elt Ideal)) (x2 : (⟨S1024, .f32⟩ : BufTy).Contents (Elt Ideal)) (r : Fin 1024) :
    rowOf (val_main_v3 (F := Ideal) x0 x1 x2) r = enc (rowOf x0 r) x1 x2 := by
  funext q
  show val_main_v3 (F := Ideal) x0 x1 x2 (ix2 r q) = _
  rw [val_main_v3_apply, val_main_v0_apply, val_main_v2_apply, val_main_v1_apply]
  have el : ∀ k : Fin 1024, lidx_main_v0 (ix2 r q) k = ix2 r k := fun k => funext fun a => Fin.ext (by
    match a with
    | ⟨0, _⟩ => rfl
    | ⟨1, _⟩ => rfl)
  have er : ∀ k : Fin 1024, ridx_main_v0 (ix2 r q) k = ix2 k q := fun k => funext fun a => Fin.ext (by
    match a with
    | ⟨0, _⟩ => rfl
    | ⟨1, _⟩ => rfl)
  have eb : idx_main_v1 (idx_main_v2 (ix2 r q)) = ix1 q := funext fun a => Fin.ext (by
    match a with
    | ⟨0, _⟩ => rfl)
  simp only [el, er, eb]
  rfl

/-- The reference's result array is `G` of the arguments. -/
theorem result_eq (x0 x1 : (⟨S1024x1024, .f32⟩ : BufTy).Contents (Elt Ideal)) (x2 : (⟨S1024, .f32⟩ : BufTy).Contents (Elt Ideal))
    (x3 x4 : (⟨S4x1024x1, .f32⟩ : BufTy).Contents (Elt Ideal)) :
    val_main_v51 (F := Ideal) x0 x1 x2 x3 x4 = G x0 x1 x2 x3 x4 := by
  funext i
  obtain ⟨r, q, rfl⟩ : ∃ (r : Fin 1024) (q : Fin 1024), i = ix2 r q := ⟨i 0, i 1, eq_ix2 i⟩
  rw [G_ix2]
  show rowOf (val_main_v51 (F := Ideal) x0 x1 x2 x3 x4) r q = _
  rw [stage4, refStep_row _ _ 3 rfl rfl rfl, stage3, refStep_row _ _ 2 rfl rfl rfl, stage2, refStep_row _ _ 1 rfl rfl rfl,
    stage1, refStep_row _ _ 0 rfl rfl rfl, enc_rowR]
  rfl

end Cert.ReferenceIdeal.Rows

end
-- ==== Proof.lean ====
/-
  The kernel (a dense layer followed by four cross layers, one fused body per 256-row block) against its jnp reference,
  over the extended reals.

  Both programs compute, for every row `r` of the input and every feature `q`,
  `G[r, q] = row (x[r, ·]) W b ws bs q` (Proof/CrossSpec.lean): `h = x[r, ·] · W + b`, then four times
  `xl ← (h · ⟨xl, ws[l]⟩ + bs[l]) + xl` starting from `xl = h`. The kernel's matmul takes bf16 operands, a change of
  format that is the identity on the extended reals, and accumulates into zero; its lane sums and the reference's
  [1024, 1024] × [1024, 1] products are the same sums over a row; the additions and products come in the same order on
  both sides. So the two results are equal term by term and no algebraic law, hence no finiteness, is needed.
  The kernel's side is Proof/KernelRows.lean (the body's payload row by row) and Proof/KernelArray.lean (blocks to the
  whole array, over the generated blockwise run); the reference's side is Proof/RefRows.lean (over the generated run
  and its read-at-an-index lemmas). The three frames are the generated ones, the reference's the generated run with
  its result dropped; the idealization rewrote nothing, so `preserves` is `True`.
-/
import proofs.«144102_j17514876633094_1_alg».proof.Defs
import proofs.«144102_j17514876633094_1_alg».proof.Proof.Gen.Kernel
import proofs.«144102_j17514876633094_1_alg».proof.Proof.Gen.Kernel.Skeleton
import proofs.«144102_j17514876633094_1_alg».proof.Proof.Gen.Kernel.Launch
import proofs.«144102_j17514876633094_1_alg».proof.Proof.Gen.Kernel.Points
import proofs.«144102_j17514876633094_1_alg».proof.Proof.Gen.Kernel.Frame
import proofs.«144102_j17514876633094_1_alg».proof.Proof.Gen.KernelIdeal
import proofs.«144102_j17514876633094_1_alg».proof.Proof.Gen.KernelIdeal.Skeleton
import proofs.«144102_j17514876633094_1_alg».proof.Proof.Gen.KernelIdeal.Launch
import proofs.«144102_j17514876633094_1_alg».proof.Proof.Gen.KernelIdeal.Points
import proofs.«144102_j17514876633094_1_alg».proof.Proof.Gen.KernelIdeal.Frame
import proofs.«144102_j17514876633094_1_alg».proof.Proof.Gen.ReferenceIdeal
import proofs.«144102_j17514876633094_1_alg».proof.Proof.Gen.KernelIdeal.Value
import proofs.«144102_j17514876633094_1_alg».proof.Proof.Gen.ReferenceIdeal.Run
import proofs.«144102_j17514876633094_1_alg».proof.Proof.Gen.ReferenceIdeal.Read
import proofs.«144102_j17514876633094_1_alg».proof.Proof.Gen.Pre_finite_inputs
import proofs.«144102_j17514876633094_1_alg».proof.Proof.CrossSpec
import proofs.«144102_j17514876633094_1_alg».proof.Proof.KernelRows
import proofs.«144102_j17514876633094_1_alg».proof.Proof.KernelArray
import proofs.«144102_j17514876633094_1_alg».proof.Proof.RefRows
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments, the kernel's result array ends at `G` of them (the blocks' rows
    are `row` of the input's rows) and so does the reference's (its stages' rows are the same `row`). -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, Cert.ReferenceIdeal.Rows.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
